-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x256 : Shape := ⟨3, ![32, 8192, 256]⟩
abbrev S32x1228 : Shape := ⟨2, ![32, 1228]⟩
abbrev S1x256 : Shape := ⟨2, ![1, 256]⟩
abbrev S_ : Shape := ⟨0, ![]⟩

class Facts : Prop where
  bcast_S_S32x8192x256 : S_.BroadcastsInDim S32x8192x256 (![] : Fin 0 → Fin S32x8192x256.rank)
  reducesTo_S32x8192x256_S_d0_1_2 : S32x8192x256.ReducesTo [0, 1, 2] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S32x8192x256 .f32) (main_arg1 : IVec S32x1228 32) (main_arg2 : FVec F S1x256 .f32) : IVec S_ 1 :=
  let main_v0 : FVec F S32x8192x256 .f32 := Host.absf main_arg0
  let main_cst : FVec F S_ .f32 := constant S_ .f32 0x7F800000#32
  let main_v1 : FVec F S32x8192x256 .f32 := broadcastInDim S32x8192x256 ![] bcast_S_S32x8192x256 main_cst
  let main_v2 : IVec S32x8192x256 1 := cmpf .olt main_v0 main_v1
  let main_c : IVec S_ 1 := constantI S_ 1 1#1
  let main_v3 : IVec S_ 1 := (fun x v => Host.reduce IntOp.andi x v reducesTo_S32x8192x256_S_d0_1_2 h_S_) main_v2 main_c
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  main_v8
-- ==== Kernel.lean ====
abbrev S32x8192x256 : Shape := ⟨3, ![32, 8192, 256]⟩
abbrev S32x1228 : Shape := ⟨2, ![32, 1228]⟩
abbrev S1x256 : Shape := ⟨2, ![1, 256]⟩
abbrev S32 : Shape := ⟨1, ![32]⟩
abbrev S32x1 : Shape := ⟨2, ![32, 1]⟩
abbrev S_ : Shape := ⟨0, ![]⟩
abbrev S32x8192 : Shape := ⟨2, ![32, 8192]⟩
abbrev S32x1228x1 : Shape := ⟨3, ![32, 1228, 1]⟩
abbrev S32x1228x2 : Shape := ⟨3, ![32, 1228, 2]⟩
abbrev S32x8192x1 : Shape := ⟨3, ![32, 8192, 1]⟩
abbrev S1x2048x256 : Shape := ⟨3, ![1, 2048, 256]⟩
abbrev S1x2048x1 : Shape := ⟨3, ![1, 2048, 1]⟩
abbrev S1x1x256 : Shape := ⟨3, ![1, 1, 256]⟩

abbrev nBuf : Space → Nat
  | .hbm => 30
  | .vmem => 7
  | .smem => 0
  | _ => 0

abbrev bufTy : (tb : Table) → Fin (tcTables nBuf tb) → BufTy
  | .hbm, ⟨0, _⟩ => ⟨S32x8192x256, .f32⟩
  | .hbm, ⟨1, _⟩ => ⟨S32x1228, .i32⟩
  | .hbm, ⟨2, _⟩ => ⟨S1x256, .f32⟩
  | .hbm, ⟨3, _⟩ => ⟨S32, .i32⟩
  | .hbm, ⟨4, _⟩ => ⟨S32x1, .i32⟩
  | .hbm, ⟨5, _⟩ => ⟨S_, .f32⟩
  | .hbm, ⟨6, _⟩ => ⟨S32x8192, .f32⟩
  | .hbm, ⟨7, _⟩ => ⟨S_, .i32⟩
  | .hbm, ⟨8, _⟩ => ⟨S32x1, .i32⟩
  | .hbm, ⟨9, _⟩ => ⟨S32x1, .i1⟩
  | .hbm, ⟨10, _⟩ => ⟨S_, .i32⟩
  | .hbm, ⟨11, _⟩ => ⟨S32x1, .i32⟩
  | .hbm, ⟨12, _⟩ => ⟨S32x1, .i32⟩
  | .hbm, ⟨13, _⟩ => ⟨S32x1, .i32⟩
  | .hbm, ⟨14, _⟩ => ⟨S_, .i32⟩
  | .hbm, ⟨15, _⟩ => ⟨S32x1228, .i32⟩
  | .hbm, ⟨16, _⟩ => ⟨S32x1228, .i1⟩
  | .hbm, ⟨17, _⟩ => ⟨S_, .i32⟩
  | .hbm, ⟨18, _⟩ => ⟨S32x1228, .i32⟩
  | .hbm, ⟨19, _⟩ => ⟨S32x1228, .i32⟩
  | .hbm, ⟨20, _⟩ => ⟨S32x1228, .i32⟩
  | .hbm, ⟨21, _⟩ => ⟨S32x1228, .i32⟩
  | .hbm, ⟨22, _⟩ => ⟨S32x1228x1, .i32⟩
  | .hbm, ⟨23, _⟩ => ⟨S32x1228x1, .i32⟩
  | .hbm, ⟨24, _⟩ => ⟨S32x1228x2, .i32⟩
  | .hbm, ⟨25, _⟩ => ⟨S_, .f32⟩
  | .hbm, ⟨26, _⟩ => ⟨S32x1228, .f32⟩
  | .hbm, ⟨27, _⟩ => ⟨S32x8192, .f32⟩
  | .hbm, ⟨28, _⟩ => ⟨S32x8192x1, .f32⟩
  | .hbm, ⟨29, _⟩ => ⟨S32x8192x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x1, .f32⟩
  | .local _ .vmem, ⟨3, _⟩ => ⟨S1x2048x1, .f32⟩
  | .local _ .vmem, ⟨4, _⟩ => ⟨S1x256, .f32⟩
  | .local _ .vmem, ⟨5, _⟩ => ⟨S1x2048x256, .f32⟩
  | .local _ .vmem, ⟨6, _⟩ => ⟨S1x2048x256, .f32⟩
  | _, _ => ⟨S32x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S32_S32x1_0 : S32.BroadcastsInDim S32x1 (![0] : Fin 1 → Fin S32x1.rank)
  bcast_S_S32x8192 : S_.BroadcastsInDim S32x8192 (![] : Fin 0 → Fin S32x8192.rank)
  bcast_S_S32x1 : S_.BroadcastsInDim S32x1 (![] : Fin 0 → Fin S32x1.rank)
  bcast_S_S32x1228 : S_.BroadcastsInDim S32x1228 (![] : Fin 0 → Fin S32x1228.rank)
  bcast_S32x1_S32x1228_0_1 : S32x1.BroadcastsInDim S32x1228 (![0, 1] : Fin 2 → Fin S32x1228.rank)
  bcast_S32x1228_S32x1228x1_0_1 : S32x1228.BroadcastsInDim S32x1228x1 (![0, 1] : Fin 2 → Fin S32x1228x1.rank)
  concatenates_S32x1228x1_S32x1228x1_S32x1228x2_d2 : Shape.Concatenates [S32x1228x1, S32x1228x1] S32x1228x2 2
  bcast_S32x8192_S32x8192x1_0_1 : S32x8192.BroadcastsInDim S32x8192x1 (![0, 1] : Fin 2 → Fin S32x8192x1.rank)
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  inb_S1x256_S1x256_0_0 : ∀ a, (![0, 0] : Fin 2 → Nat) a + S1x256.size a ≤ S1x256.size a
  h_S1x256 : 0 < S1x256.numel
  shapeCasts_S1x256_S1x1x256 : S1x256.ShapeCasts S1x1x256
  shapeCasts_S1x1x256_S1x1x256 : S1x1x256.ShapeCasts S1x1x256
  broadcasts_S1x1x256_S1x2048x256 : S1x1x256.Broadcasts S1x2048x256
  broadcasts_S1x2048x1_S1x2048x256 : S1x2048x1.Broadcasts S1x2048x256
  inb_S1x2048x256_S1x2048x256_0_0_0 : ∀ a, (![0, 0, 0] : Fin 3 → Nat) a + S1x2048x256.size a ≤ S1x2048x256.size a
  h_S1x2048x256 : 0 < S1x2048x256.numel
  scatter_S32x8192_S32x1228x2_S32x1228_n_01_01_2_wf : ScatterDims.WF S32x8192 S32x1228x2 S32x1228 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x8192x256.size a
  hwx0_0 : ∀ i : grid0.Coords, EltTy.bits .f32 = 32 ∨ (Rect.block (s := S32x8192x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S32x8192x1.size a
  hwx0_1 : ∀ i : grid0.Coords, EltTy.bits .f32 = 32 ∨ (Rect.block (s := S32x8192x1) S1x2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S32x8192x256.size a
  hwx0_3 : ∀ i : grid0.Coords, EltTy.bits .f32 = 32 ∨ (Rect.block (s := S32x8192x256) S1x2048x256.size (cc0_transform_3 i) (hinb0_3 i)).WholeWords (EltTy.packing .f32)

variable [Facts₀]

def scatter_S32x8192_S32x1228x2_S32x1228_n_01_01_2 : ScatterDims S32x8192 S32x1228x2 S32x1228 where
  updateWindowDims := []
  insertedWindowDims := [0, 1]
  scatterDimsToOperandDims := [0, 1]
  indexVectorDim := 2
  wf := scatter_S32x8192_S32x1228x2_S32x1228_n_01_01_2_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192x256 : Shape := ⟨3, ![32, 8192, 256]⟩
abbrev S32x1228 : Shape := ⟨2, ![32, 1228]⟩
abbrev S1x256 : Shape := ⟨2, ![1, 256]⟩
abbrev S32 : Shape := ⟨1, ![32]⟩
abbrev S32x1 : Shape := ⟨2, ![32, 1]⟩
abbrev S256 : Shape := ⟨1, ![256]⟩
abbrev S_ : Shape := ⟨0, ![]⟩
abbrev S32x1228x1 : Shape := ⟨3, ![32, 1228, 1]⟩
abbrev S32x1228x2 : Shape := ⟨3, ![32, 1228, 2]⟩
abbrev S32x1228x256 : Shape := ⟨3, ![32, 1228, 256]⟩

abbrev nBuf : Space → Nat
  | .hbm => 26
  | .vmem => 0
  | .smem => 0
  | _ => 0

abbrev bufTy : (tb : Table) → Fin (tcTables nBuf tb) → BufTy
  | .hbm, ⟨0, _⟩ => ⟨S32x8192x256, .f32⟩
  | .hbm, ⟨1, _⟩ => ⟨S32x1228, .i32⟩
  | .hbm, ⟨2, _⟩ => ⟨S1x256, .f32⟩
  | .hbm, ⟨3, _⟩ => ⟨S32, .i32⟩
  | .hbm, ⟨4, _⟩ => ⟨S32x1, .i32⟩
  | .hbm, ⟨5, _⟩ => ⟨S256, .f32⟩
  | .hbm, ⟨6, _⟩ => ⟨S_, .i32⟩
  | .hbm, ⟨7, _⟩ => ⟨S32x1, .i32⟩
  | .hbm, ⟨8, _⟩ => ⟨S32x1, .i1⟩
  | .hbm, ⟨9, _⟩ => ⟨S_, .i32⟩
  | .hbm, ⟨10, _⟩ => ⟨S32x1, .i32⟩
  | .hbm, ⟨11, _⟩ => ⟨S32x1, .i32⟩
  | .hbm, ⟨12, _⟩ => ⟨S32x1, .i32⟩
  | .hbm, ⟨13, _⟩ => ⟨S_, .i32⟩
  | .hbm, ⟨14, _⟩ => ⟨S32x1228, .i32⟩
  | .hbm, ⟨15, _⟩ => ⟨S32x1228, .i1⟩
  | .hbm, ⟨16, _⟩ => ⟨S_, .i32⟩
  | .hbm, ⟨17, _⟩ => ⟨S32x1228, .i32⟩
  | .hbm, ⟨18, _⟩ => ⟨S32x1228, .i32⟩
  | .hbm, ⟨19, _⟩ => ⟨S32x1228, .i32⟩
  | .hbm, ⟨20, _⟩ => ⟨S32x1228, .i32⟩
  | .hbm, ⟨21, _⟩ => ⟨S32x1228x1, .i32⟩
  | .hbm, ⟨22, _⟩ => ⟨S32x1228x1, .i32⟩
  | .hbm, ⟨23, _⟩ => ⟨S32x1228x2, .i32⟩
  | .hbm, ⟨24, _⟩ => ⟨S32x1228x256, .f32⟩
  | .hbm, ⟨25, _⟩ => ⟨S32x8192x256, .f32⟩
  | _, _ => ⟨S32x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S32_S32x1_0 : S32.BroadcastsInDim S32x1 (![0] : Fin 1 → Fin S32x1.rank)
  shapeCasts_S1x256_S256 : S1x256.ShapeCasts S256
  bcast_S_S32x1 : S_.BroadcastsInDim S32x1 (![] : Fin 0 → Fin S32x1.rank)
  bcast_S_S32x1228 : S_.BroadcastsInDim S32x1228 (![] : Fin 0 → Fin S32x1228.rank)
  bcast_S32x1_S32x1228_0_1 : S32x1.BroadcastsInDim S32x1228 (![0, 1] : Fin 2 → Fin S32x1228.rank)
  bcast_S32x1228_S32x1228x1_0_1 : S32x1228.BroadcastsInDim S32x1228x1 (![0, 1] : Fin 2 → Fin S32x1228x1.rank)
  concatenates_S32x1228x1_S32x1228x1_S32x1228x2_d2 : Shape.Concatenates [S32x1228x1, S32x1228x1] S32x1228x2 2
  bcast_S256_S32x1228x256_2 : S256.BroadcastsInDim S32x1228x256 (![2] : Fin 1 → Fin S32x1228x256.rank)
  scatter_S32x8192x256_S32x1228x2_S32x1228x256_2_01_01_2_wf : ScatterDims.WF S32x8192x256 S32x1228x2 S32x1228x256 [2] [0, 1] [0, 1] 2

variable [Facts₀]

def scatter_S32x8192x256_S32x1228x2_S32x1228x256_2_01_01_2 : ScatterDims S32x8192x256 S32x1228x2 S32x1228x256 where
  updateWindowDims := [2]
  insertedWindowDims := [0, 1]
  scatterDimsToOperandDims := [0, 1]
  indexVectorDim := 2
  wf := scatter_S32x8192x256_S32x1228x2_S32x1228x256_2_01_01_2_wf

class Facts : Prop extends Facts₀ where

variable [Facts]
-- ==== Proof.KernelValue.lean ====
/-
  What the kernel leaves in its result array, as ONE function of the argument arrays.

  The grid is 32 × 4: point (bi, ni) handles rows [2048·ni, 2048·ni + 2048) of batch bi.  Its body loads the block
  of `x` (1 × 2048 × 256), the block of the 0/1 row mask (1 × 2048 × 1) and the whole replacement row `emb`
  (1 × 256), and stores, element by element, `emb[0, d]` where the row's mask entry exceeds 1/2 and `x[b, n, d]`
  otherwise.  The 128 blocks tile the result array, so after the run

      out[b, n, d] = if mask[b, n, 0] > 1/2 then emb[0, d] else x[b, n, d]        (`selectRows`),

  with `mask` the array the host operations before the call wrote: zeros with ones scattered at the index pairs,
  given a trailing unit axis (`maskArr`).
-/
import proofs.«109381_j59176059404649_1_alg».proof.Proof.Gen.KernelIdeal.Value
import Idealize.ShloMosaic.Lib.ValueIdx
import Idealize.ShloMosaic.Lib.StableHlo.Run

set_option maxRecDepth 16384

noncomputable section

namespace Cert.KernelIdeal.MaskedRows

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo

variable {F : FTy → Type} [FloatOps F]
variable (m : (ℓ : Loc nD τ sig) → Buf (Elt F) ℓ) (ρ : Dev nD → PrngReg)

/-! ## The result as a function of the arrays -/

/-- Row `(b, n)` of the result is the replacement row where the mask entry of `(b, n)` exceeds one half, and the
    row of `x` otherwise. -/
abbrev selectRows (x : S32x8192x256.Idx → Elt F .f32) (mk : S32x8192x1.Idx → Elt F .f32) (e : S1x256.Idx → Elt F .f32) :
    S32x8192x256.Idx → Elt F .f32 := fun i =>
  Scalar.select (FloatOps.cmpf .ogt (mk (ix3 (i 0) (i 1) (0 : Fin 1))) (Scalar.ofBits .f32 0x3F000000#32))
    (e (ix2 (0 : Fin 1) (i 2))) (x i)

theorem off3 : (![0, 0, 0] : Fin 3 → Nat) = fun _ => 0 := funext fun a => by fin_cases a <;> rfl
theorem off2 : (![0, 0] : Fin 2 → Nat) = fun _ => 0 := funext fun a => by fin_cases a <;> rfl

/-- The printed index maps over the 128 grid points: the `x` block and the mask block move with the result block
    (the mask's last block index stays 0), the replacement row's block never moves, and the result block's
    indices range over 32 × 4 × 1. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = win0_3.index t (2 : Fin 3)
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 2) = 0 ∧ win0_2.index t (1 : Fin 2) = 0
    ∧ win0_3.index t (0 : Fin 3) ≤ 31 ∧ win0_3.index t (1 : Fin 3) ≤ 3 ∧ win0_3.index t (2 : Fin 3) = 0 :=
  (by decide +kernel : ∀ t : Fin grid0.N, _)

/-- Every (batch, row-block) pair is some grid point's result block. -/
theorem index_onto : ∀ (q0 : Fin 32) (q1 : Fin 4), ∃ t : Fin cfg0.N, win0_3.index t = ![q0.val, q1.val, 0] :=
  (by decide +kernel : ∀ (q0 : Fin 32) (q1 : Fin 4), ∃ t : Fin grid0.N, win0_3.index t = ![q0.val, q1.val, 0])

/-- WHAT POINT `t` WRITES BACK is block `t` of `selectRows` of the arrays as the region finds them. -/
theorem flushed_eq (c : Dev nD) (t : Fin cfg0.N) :
    (dats m 0 c).flushed 3 t
      = ((cfg0.win 3).blk t).view.read (Elt F) (selectRows (V m c main_arg0) (V m c main_v19) (V m c main_arg2)) := by
  rw [Value.flushed3]
  obtain ⟨e0, e1, e2, e3, e4, e5, e6, e7, e8, e9, e10⟩ := index_facts t
  funext j
  show out0_3 (iblk m c 0 t) (iblk m c 1 t) (iblk m c 2 t) j = _
  unfold out0_3
  refine (Value.canon3_eq _ _ _ j).trans ?_
  simp only [View.ld_unit_zero (S := S1x2048x1) off3, View.ld_unit_zero (S := S1x256) off2,
    View.ld_unit_zero (S := S1x2048x256) off3]
  have hj0 : (j 0).val < 1 := (j 0).isLt
  have hj1 : (j 1).val < 2048 := (j 1).isLt
  have hj2 : (j 2).val < 256 := (j 2).isLt
  -- the x block under the result block
  have hx : iblk m c 0 t (Value.ix3_2 j) = V m c main_arg0 (((cfg0.win 3).blk t).view.emb j) := by
    show V m c main_arg0 (((cfg0.win 0).blk t).view.emb (Value.ix3_2 j)) = _
    refine congrArg _ (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 2048 + 1 * (j 1).val = win0_3.index t (1 : Fin 3) * 2048 + 1 * (j 1).val; omega
    | ⟨2, _⟩ => show win0_0.index t (2 : Fin 3) * 256 + 1 * (j 2).val = win0_3.index t (2 : Fin 3) * 256 + 1 * (j 2).val; omega
  -- the mask block: the row's one entry
  have hm : iblk m c 1 t (Value.ix3_0 j)
      = V m c main_v19 (ix3 ((((cfg0.win 3).blk t).view.emb j) 0) ((((cfg0.win 3).blk t).view.emb j) 1) (0 : Fin 1)) := by
    show V m c main_v19 (((cfg0.win 1).blk t).view.emb (Value.ix3_0 j)) = _
    refine congrArg _ (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 2048 + 1 * (j 1).val = win0_3.index t (1 : Fin 3) * 2048 + 1 * (j 1).val; omega
    | ⟨2, _⟩ => show win0_1.index t (2 : Fin 3) * 1 + 1 * 0 = 0; omega
  -- the replacement row: the whole array is the block
  have he : iblk m c 2 t (Value.ix3_1 j) = V m c main_arg2 (ix2 (0 : Fin 1) ((((cfg0.win 3).blk t).view.emb j) 2)) := by
    show V m c main_arg2 (((cfg0.win 2).blk t).view.emb (Value.ix3_1 j)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * (j 2).val = win0_3.index t (2 : Fin 3) * 256 + 1 * (j 2).val; omega
  show Scalar.select (FloatOps.cmpf .ogt (iblk m c 1 t (Value.ix3_0 j)) (Scalar.ofBits .f32 0x3F000000#32))
      (iblk m c 2 t (Value.ix3_1 j)) (iblk m c 0 t (Value.ix3_2 j)) = _
  rw [hx, hm, he]
  rfl

/-! ## The blocks tile the result array -/

/-- An index of the result array is in point `t`'s block iff each coordinate is in the block's range on its axis. -/
theorem mem_blk (t : Fin cfg0.N) (i : S32x8192x256.Idx) :
    i ∈ ((cfg0.win 3).blk t).view.set ↔ ∀ a : Fin 3, win0_3.index t a * S1x2048x256.size a ≤ (i a).val
      ∧ (i a).val < win0_3.index t a * S1x2048x256.size a + S1x2048x256.size a := by
  show i ∈ ((View.whole main_v20).slice (win0_3.rect t)).set ↔ _
  rw [View.set_slice_whole, Rect.mem_set_unit]
  exact Iff.rfl

/-- Every index `(b, n, d)` is in the block of the point with block indices `(b, n / 2048, 0)`. -/
theorem covered (i : S32x8192x256.Idx) :
    ∃ t : Fin cfg0.N, (cfg0.win 3).flush t = true ∧ i ∈ ((cfg0.win 3).blk t).view.set := by
  have hi0 : (i 0).val < 32 := (i 0).isLt
  have hi1 : (i 1).val < 8192 := (i 1).isLt
  have hi2 : (i 2).val < 256 := (i 2).isLt
  obtain ⟨t, ht⟩ := index_onto ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 256 ≤ (i 2).val ∧ (i 2).val < win0_3.index t (2 : Fin 3) * 256 + 256; omega

/-- THE RESULT ARRAY after the run is `selectRows` of the arrays as the region finds them. -/
theorem final (c : Dev nD) :
    (dats m 0 c).arrAt 3 cfg0.N = selectRows (V m c main_arg0) (V m c main_v19) (V m c main_arg2) :=
  (dats m 0 c).arrAt_eq_of_cover 3 _ (fun t _ => flushed_eq m c t) covered

/-! ## The mask the host operations write -/

/-- The table of scatter index pairs, from the index input `a1 : [32, 1228]`: pair `(p, q)` is (the batch `p`,
    `a1[p, q]` with a negative entry moved up by 8192), both components as 32-bit words. -/
def indexPairs (a1 : IVec S32x1228 32) : IVec S32x1228x2 32 :=
  concatenate S32x1228x2 2
    [⟨S32x1228x1, broadcastInDim S32x1228x1 ![0, 1] bcast_S32x1228_S32x1228x1_0_1
        (broadcastInDim S32x1228 ![0, 1] bcast_S32x1_S32x1228_0_1
          (select (cmpi .slt (broadcastInDim S32x1 ![0] bcast_S32_S32x1_0 (iotaInDim S32 32 0))
              (broadcastInDim S32x1 ![] bcast_S_S32x1 (constantI S_ 32 0#32)))
            (addi (broadcastInDim S32x1 ![0] bcast_S32_S32x1_0 (iotaInDim S32 32 0))
              (broadcastInDim S32x1 ![] bcast_S_S32x1 (constantI S_ 32 32#32)))
            (broadcastInDim S32x1 ![0] bcast_S32_S32x1_0 (iotaInDim S32 32 0))))⟩,
     ⟨S32x1228x1, broadcastInDim S32x1228x1 ![0, 1] bcast_S32x1228_S32x1228x1_0_1
        (select (cmpi .slt a1 (broadcastInDim S32x1228 ![] bcast_S_S32x1228 (constantI S_ 32 0#32)))
          (addi a1 (broadcastInDim S32x1228 ![] bcast_S_S32x1228 (constantI S_ 32 8192#32))) a1)⟩]
    concatenates_S32x1228x1_S32x1228x1_S32x1228x2_d2

/-- The mask array `[32, 8192, 1]`: zeros with the pattern of 1.0 written at every index pair of the table (an
    overwriting scatter; pairs outside the array dropped), then a trailing unit axis. -/
def maskArr (a1 : IVec S32x1228 32) : S32x8192x1.Idx → Elt F .f32 :=
  broadcastInDim S32x8192x1 ![0, 1] bcast_S32x8192_S32x8192x1_0_1
    (Host.scatter scatter_S32x8192_S32x1228x2_S32x1228_n_01_01_2 (fun _ b => b)
      (broadcastInDim S32x8192 ![] bcast_S_S32x8192 (constant S_ .f32 0x00000000#32))
      (indexPairs a1)
      (broadcastInDim S32x1228 ![] bcast_S_S32x1228 (constant S_ .f32 0x3F800000#32)))

set_option maxHeartbeats 2000000 in
/-- The region finds the mask window's array at `maskArr` of the index input. -/
theorem V_mask (c : Dev nD) :
    (V m c main_v19 : S32x8192x1.Idx → Elt F .f32) = maskArr (m ((c : Thread nD τ).loc main_arg1)) := by
  unfold maskArr indexPairs
  dsimp only [Gen.V, Gen.hostOps0]; after_results

/-! ## The run, read -/

/-- The kernel's run with its result array named: `selectRows` of `x`, the mask of the index input, and `emb`;
    the arguments unchanged. -/
theorem run : θ_run defs (onTc (τ := τ) (main (F := F))) ⟨m, fun _ => 0, ρ⟩ fun r => ∀ c : Dev nD,
      r.2.mem ((c : Thread nD τ).loc main_v20)
        = selectRows (m ((c : Thread nD τ).loc main_arg0)) (maskArr (m ((c : Thread nD τ).loc main_arg1)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [V_main_arg0, V_mask, V_main_arg2])), (h c).2⟩)
    (Value.run_blocks m ρ)

end Cert.KernelIdeal.MaskedRows

end
-- ==== Proof.LibScatterSet.lean ====
/-
  An overwriting scatter read at one index.

  `Host.scatter d (fun _ b => b) x idx upd` is the left fold, over the update indices in row-major order, of
  "write the update at its result index when that index is inside the operand, else drop it".  When the value an
  update writes is determined by WHERE it lands — there is a function `g` of the operand index with
  `upd j = g i` whenever update `j` lands at `i` — the order of the writes does not matter: the result at `i`
  is `g i` when some update lands at `i`, and the operand's `x i` when none does.  Repeated scatter indices are
  allowed (all the writes that meet at `i` write the same `g i`).
-/
import Idealize.ShloMosaic.PureOps.ShapeOps

namespace Idealize.ShloMosaic.ScatterSet

variable {s si u : Shape} {α : Type} {w : Nat}

/-- The fold of an overwriting scatter's step over ANY list of update positions, read at the index `i'`, when every
    update that lands at `i'` writes the one value `v`: it is `v` once some position of the list lands at `i'`, the
    accumulator's entry otherwise. -/
theorem foldl_set_apply (d : ScatterDims s si u) (idx : IVec si w) (upd : u.Idx → α) (i' : s.Idx) (v : α)
    (hv : ∀ j, d.resultIdx? j idx = some i' → upd j = v) (l : List (Fin u.numel)) :
    ∀ r : s.Idx → α,
      (l.foldl (fun r n =>
          match d.resultIdx? (u.rowMajor.symm n) idx with
          | some i => fun i' => if i' = i then (fun (_ b : α) => b) (r i) (upd (u.rowMajor.symm n)) else r i'
          | none => r) r) i'
        = (open Classical in if ∃ n ∈ l, d.resultIdx? (u.rowMajor.symm n) idx = some i' then v else r i') := by
  classical
  induction l with
  | nil => intro r; simp
  | cons n l ih =>
    intro r
    rw [List.foldl_cons, ih]
    cases hn : d.resultIdx? (u.rowMajor.symm n) idx with
    | none =>
      have : (∃ k ∈ n :: l, d.resultIdx? (u.rowMajor.symm k) idx = some i')
          ↔ ∃ k ∈ l, d.resultIdx? (u.rowMajor.symm k) idx = some i' := by
        constructor
        · rintro ⟨k, hk, hk'⟩
          rcases List.mem_cons.mp hk with rfl | hk
          · rw [hn] at hk'; cases hk'
          · exact ⟨k, hk, hk'⟩
        · rintro ⟨k, hk, hk'⟩; exact ⟨k, List.mem_cons_of_mem _ hk, hk'⟩
      simp only [this]
    | some i =>
      by_cases hl : ∃ k ∈ l, d.resultIdx? (u.rowMajor.symm k) idx = some i'
      · have : ∃ k ∈ n :: l, d.resultIdx? (u.rowMajor.symm k) idx = some i' := by
          obtain ⟨k, hk, hk'⟩ := hl; exact ⟨k, List.mem_cons_of_mem _ hk, hk'⟩
        rw [if_pos hl, if_pos this]
      · rw [if_neg hl]
        by_cases hi : i' = i
        · have : ∃ k ∈ n :: l, d.resultIdx? (u.rowMajor.symm k) idx = some i' :=
            ⟨n, List.mem_cons_self, by rw [hn, hi]⟩
          rw [if_pos this]
          show (if i' = i then upd (u.rowMajor.symm n) else r i') = v
          rw [if_pos hi, hv _ (by rw [hn, hi])]
        · have : ¬ ∃ k ∈ n :: l, d.resultIdx? (u.rowMajor.symm k) idx = some i' := by
            rintro ⟨k, hk, hk'⟩
            rcases List.mem_cons.mp hk with rfl | hk
            · rw [hn] at hk'; exact hi (Option.some.inj hk').symm
            · exact hl ⟨k, hk, hk'⟩
          rw [if_neg this]
          show (if i' = i then upd (u.rowMajor.symm n) else r i') = r i'
          rw [if_neg hi]

/-- An overwriting scatter at an index where some update lands: the value every such update writes. -/
theorem scatter_set_of_hit (d : ScatterDims s si u) (x : s.Idx → α) (idx : IVec si w) (upd : u.Idx → α) (g : s.Idx → α)
    (hg : ∀ j i, d.resultIdx? j idx = some i → upd j = g i) (i' : s.Idx)
    (h : ∃ j, d.resultIdx? j idx = some i') :
    Host.scatter d (fun _ b => b) x idx upd i' = g i' := by
  classical
  unfold Host.scatter
  refine (foldl_set_apply d idx upd i' (g i') (fun j hj => hg j i' hj) _ x).trans ?_
  obtain ⟨j, hj⟩ := h
  exact if_pos ⟨u.rowMajor j, List.mem_finRange _, by rw [Equiv.symm_apply_apply]; exact hj⟩

/-- The same from the one index `i'` alone: every update that lands AT `i'` writes `v`, and one does. -/
theorem scatter_set_of_hit_at (d : ScatterDims s si u) (x : s.Idx → α) (idx : IVec si w) (upd : u.Idx → α)
    (i' : s.Idx) (v : α) (hv : ∀ j, d.resultIdx? j idx = some i' → upd j = v)
    (h : ∃ j, d.resultIdx? j idx = some i') :
    Host.scatter d (fun _ b => b) x idx upd i' = v := by
  classical
  unfold Host.scatter
  refine (foldl_set_apply d idx upd i' v hv _ x).trans ?_
  obtain ⟨j, hj⟩ := h
  exact if_pos ⟨u.rowMajor j, List.mem_finRange _, by rw [Equiv.symm_apply_apply]; exact hj⟩

/-- An overwriting scatter at an index where no update lands: the operand's entry. -/
theorem scatter_set_of_not_hit (d : ScatterDims s si u) (x : s.Idx → α) (idx : IVec si w) (upd : u.Idx → α)
    (i' : s.Idx) (h : ∀ j, d.resultIdx? j idx ≠ some i') :
    Host.scatter d (fun _ b => b) x idx upd i' = x i' := by
  classical
  unfold Host.scatter
  refine (foldl_set_apply d idx upd i' (x i') (fun j hj => absurd hj (h j)) _ x).trans ?_
  exact if_neg (fun ⟨n, _, hn⟩ => h _ hn)

end Idealize.ShloMosaic.ScatterSet
-- ==== Proof.LibScatterRows.lean ====
/-
  Two overwriting scatters through ONE table of two-component scatter indices `idx : [B, M, 2]` (component 0 a row
  of axis 0, component 1 a row of axis 1; `index_vector_dim = 2`, both operand axes inserted):

  * the POINT scatter into a rank-2 operand `[N0, N1]` — update `(p, q)` lands at `(idx[p,q,0], idx[p,q,1])` —, and
  * the ROW scatter into a rank-3 operand `[N0, N1, C]` — update `(p, q, c)` lands at `(idx[p,q,0], idx[p,q,1], c)`,
    the last axis a window axis that keeps its coordinate.

  An update whose index pair is outside `[0, N0) × [0, N1)` is dropped by both.  So an index `(b, n, c)` of the
  rank-3 operand is hit by the row scatter exactly when `(b, n)` is hit by the point scatter, and every update
  that hits it carries window coordinate `c`.  Consequences, for ANY index table (repeats and out-of-range
  pairs included): the point scatter of one constant `o` into a constant `z` is the indicator of the hit set,
  and the row scatter of one row `e` into `x` is `e c` on the hit set and `x` elsewhere — the row scatter is
  the select of `e` against `x` by the point scatter's mask.
-/
import Idealize.ShloMosaic.PureOps.ShapeOps
import Idealize.ShloMosaic.Lib.ValueIdx
import proofs.«109381_j59176059404649_1_alg».proof.Proof.LibScatterSet

namespace Idealize.ShloMosaic.ScatterRows

open Idealize.ShloMosaic Idealize.ShloMosaic.ValueIdx

/-! ## An update's result index, for any dimension numbers -/

section General
variable {s si u : Shape} {w : Nat}

/-- Update `j` lands at `i` exactly when, on every operand axis, its start plus its window coordinate is `i`'s
    coordinate (in range then, since `i` is an index of the operand). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      show d.start j idx a + (d.window j a : Int) = (((d.start j idx a + (d.window j a : Int)).toNat : Nat) : Int)
      have := (h a).1
      omega
    · intro hh
      funext a
      apply Fin.ext
      show (d.start j idx a + (d.window j a : Int)).toNat = (i a).val
      rw [hh a]
      exact Int.toNat_natCast _
  · rename_i h
    constructor
    · intro h'; cases h'
    · intro hh
      refine absurd (fun a => ⟨?_, ?_⟩) h
      · rw [hh a]; exact Int.natCast_nonneg _
      · rw [hh a]; exact_mod_cast (i a).isLt

end General

variable {N0 N1 C B M : Nat}

/-! ## The two scatters' dimension numbers -/

/-- The point scatter's: no window axis, both operand axes inserted and named by the index vector (axis 2). -/
abbrev pointDims (wf : ScatterDims.WF ⟨2, ![N0, N1]⟩ ⟨3, ![B, M, 2]⟩ ⟨2, ![B, M]⟩ [] [0, 1] [0, 1] 2) :
    ScatterDims ⟨2, ![N0, N1]⟩ ⟨3, ![B, M, 2]⟩ ⟨2, ![B, M]⟩ :=
  { updateWindowDims := [], insertedWindowDims := [0, 1], scatterDimsToOperandDims := [0, 1], indexVectorDim := 2, wf := wf }

/-- The row scatter's: the update's axis 2 a window axis over the operand's axis 2. -/
abbrev rowDims (wf : ScatterDims.WF ⟨3, ![N0, N1, C]⟩ ⟨3, ![B, M, 2]⟩ ⟨3, ![B, M, C]⟩ [2] [0, 1] [0, 1] 2) :
    ScatterDims ⟨3, ![N0, N1, C]⟩ ⟨3, ![B, M, 2]⟩ ⟨3, ![B, M, C]⟩ :=
  { updateWindowDims := [2], insertedWindowDims := [0, 1], scatterDimsToOperandDims := [0, 1], indexVectorDim := 2, wf := wf }

variable (wfP : ScatterDims.WF ⟨2, ![N0, N1]⟩ ⟨3, ![B, M, 2]⟩ ⟨2, ![B, M]⟩ [] [0, 1] [0, 1] 2)
variable (wfR : ScatterDims.WF ⟨3, ![N0, N1, C]⟩ ⟨3, ![B, M, 2]⟩ ⟨3, ![B, M, C]⟩ [2] [0, 1] [0, 1] 2)
variable {w : Nat}

/-! ## Starts and window coordinates -/

theorem point_start0 (j : (⟨2, ![B, M]⟩ : Shape).Idx) (idx : IVec ⟨3, ![B, M, 2]⟩ w) :
    (pointDims wfP).start j idx 0 = (idx (ix3 (j 0) (j 1) (0 : Fin 2))).toInt := by
  unfold ScatterDims.start
  rw [dif_pos (show (0 : Fin 2) ∈ ([0, 1] : List (Fin 2)) by decide)]
  congr 2
  funext a; match a with | ⟨0, _⟩ => rfl | ⟨1, _⟩ => rfl | ⟨2, _⟩ => rfl

theorem point_start1 (j : (⟨2, ![B, M]⟩ : Shape).Idx) (idx : IVec ⟨3, ![B, M, 2]⟩ w) :
    (pointDims wfP).start j idx 1 = (idx (ix3 (j 0) (j 1) (1 : Fin 2))).toInt := by
  unfold ScatterDims.start
  rw [dif_pos (show (1 : Fin 2) ∈ ([0, 1] : List (Fin 2)) by decide)]
  congr 2
  funext a; match a with | ⟨0, _⟩ => rfl | ⟨1, _⟩ => rfl | ⟨2, _⟩ => rfl

theorem point_window (j : (⟨2, ![B, M]⟩ : Shape).Idx) (a : Fin 2) : (pointDims wfP).window j a = 0 := by
  unfold ScatterDims.window
  have h : a ∉ (pointDims wfP).sKept := fun h => by have h' : a ∈ ([] : List (Fin 2)) := h; cases h'
  rw [dif_neg h]

theorem row_start0 (j : (⟨3, ![B, M, C]⟩ : Shape).Idx) (idx : IVec ⟨3, ![B, M, 2]⟩ w) :
    (rowDims wfR).start j idx 0 = (idx (ix3 (j 0) (j 1) (0 : Fin 2))).toInt := by
  unfold ScatterDims.start
  rw [dif_pos (show (0 : Fin 3) ∈ ([0, 1] : List (Fin 3)) by decide)]
  congr 2
  funext a; match a with | ⟨0, _⟩ => rfl | ⟨1, _⟩ => rfl | ⟨2, _⟩ => rfl

theorem row_start1 (j : (⟨3, ![B, M, C]⟩ : Shape).Idx) (idx : IVec ⟨3, ![B, M, 2]⟩ w) :
    (rowDims wfR).start j idx 1 = (idx (ix3 (j 0) (j 1) (1 : Fin 2))).toInt := by
  unfold ScatterDims.start
  rw [dif_pos (show (1 : Fin 3) ∈ ([0, 1] : List (Fin 3)) by decide)]
  congr 2
  funext a; match a with | ⟨0, _⟩ => rfl | ⟨1, _⟩ => rfl | ⟨2, _⟩ => rfl

theorem row_start2 (j : (⟨3, ![B, M, C]⟩ : Shape).Idx) (idx : IVec ⟨3, ![B, M, 2]⟩ w) :
    (rowDims wfR).start j idx 2 = 0 := by
  unfold ScatterDims.start
  rw [dif_neg (show (2 : Fin 3) ∉ ([0, 1] : List (Fin 3)) by decide)]

theorem row_window0 (j : (⟨3, ![B, M, C]⟩ : Shape).Idx) : (rowDims wfR).window j 0 = 0 := by
  unfold ScatterDims.window
  have h : (0 : Fin 3) ∉ (rowDims wfR).sKept := (show (0 : Fin 3) ∉ ([2] : List (Fin 3)) by decide)
  rw [dif_neg h]

theorem row_window1 (j : (⟨3, ![B, M, C]⟩ : Shape).Idx) : (rowDims wfR).window j 1 = 0 := by
  unfold ScatterDims.window
  have h : (1 : Fin 3) ∉ (rowDims wfR).sKept := (show (1 : Fin 3) ∉ ([2] : List (Fin 3)) by decide)
  rw [dif_neg h]

theorem row_window2 (j : (⟨3, ![B, M, C]⟩ : Shape).Idx) : (rowDims wfR).window j 2 = (j 2).val := by
  unfold ScatterDims.window
  have h : (2 : Fin 3) ∈ (rowDims wfR).sKept := (show (2 : Fin 3) ∈ ([2] : List (Fin 3)) by decide)
  rw [dif_pos h]
  rfl

/-! ## Where an update lands -/

/-- Point update `j = (p, q)` lands at `(b, n)` iff the table's pair at `(p, q)` is `(b, n)`. -/
theorem point_lands_iff (j : (⟨2, ![B, M]⟩ : Shape).Idx) (idx : IVec ⟨3, ![B, M, 2]⟩ w) (b : Fin N0) (n : Fin N1) :
    (pointDims wfP).resultIdx? j idx = some (ix2 b n)
      ↔ (idx (ix3 (j 0) (j 1) (0 : Fin 2))).toInt = (b.val : Int) ∧ (idx (ix3 (j 0) (j 1) (1 : Fin 2))).toInt = (n.val : Int) := by
  rw [resultIdx?_eq_some_iff, Fin.forall_fin_two, point_start0, point_start1, point_window, point_window]
  simp only [Nat.cast_zero, add_zero]

/-- Row update `j = (p, q, c')` lands at `(b, n, c)` iff the table's pair at `(p, q)` is `(b, n)` and `c' = c`. -/
theorem row_lands_iff (j : (⟨3, ![B, M, C]⟩ : Shape).Idx) (idx : IVec ⟨3, ![B, M, 2]⟩ w) (b : Fin N0) (n : Fin N1) (c : Fin C) :
    (rowDims wfR).resultIdx? j idx = some (ix3 b n c)
      ↔ (idx (ix3 (j 0) (j 1) (0 : Fin 2))).toInt = (b.val : Int) ∧ (idx (ix3 (j 0) (j 1) (1 : Fin 2))).toInt = (n.val : Int)
        ∧ (j 2).val = c.val := by
  rw [resultIdx?_eq_some_iff, Fin.forall_fin_succ, Fin.forall_fin_succ, Fin.forall_fin_one]
  show (rowDims wfR).start j idx 0 + ((rowDims wfR).window j 0 : Int) = (b.val : Int)
      ∧ (rowDims wfR).start j idx 1 + ((rowDims wfR).window j 1 : Int) = (n.val : Int)
      ∧ (rowDims wfR).start j idx 2 + ((rowDims wfR).window j 2 : Int) = (c.val : Int) ↔ _
  rw [row_start0, row_start1, row_start2, row_window0, row_window1, row_window2]
  simp only [Nat.cast_zero, add_zero, zero_add, Nat.cast_inj]

/-- THE HIT SETS AGREE: some row update lands at `(b, n, c)` iff some point update lands at `(b, n)`. -/
theorem row_hit_iff_point_hit (idx : IVec ⟨3, ![B, M, 2]⟩ w) (b : Fin N0) (n : Fin N1) (c : Fin C) :
    (∃ j, (rowDims wfR).resultIdx? j idx = some (ix3 b n c)) ↔ (∃ j, (pointDims wfP).resultIdx? j idx = some (ix2 b n)) := by
  constructor
  · rintro ⟨j, hj⟩
    rw [row_lands_iff] at hj
    exact ⟨ix2 (j 0) (j 1), (point_lands_iff wfP _ idx b n).2 ⟨hj.1, hj.2.1⟩⟩
  · rintro ⟨j, hj⟩
    rw [point_lands_iff] at hj
    exact ⟨ix3 (j 0) (j 1) c, (row_lands_iff wfR _ idx b n c).2 ⟨hj.1, hj.2, rfl⟩⟩

/-! ## The two scatters read at an index -/

/-- The point scatter of the constant `o` into the constant `z`: `o` on the hit set, `z` off it. -/
theorem point_scatter_const {α : Type} (z o : α) (idx : IVec ⟨3, ![B, M, 2]⟩ w) (b : Fin N0) (n : Fin N1) :
    Host.scatter (pointDims wfP) (fun _ v => v) (fun _ => z) idx (fun _ => o) (ix2 b n)
      = (open Classical in if ∃ j, (pointDims wfP).resultIdx? j idx = some (ix2 b n) then o else z) := by
  classical
  by_cases h : ∃ j, (pointDims wfP).resultIdx? j idx = some (ix2 b n)
  · rw [if_pos h]
    exact ScatterSet.scatter_set_of_hit _ _ idx _ (fun _ => o) (fun _ _ _ => rfl) _ h
  · rw [if_neg h]
    exact ScatterSet.scatter_set_of_not_hit _ _ idx _ _ (fun j hj => h ⟨j, hj⟩)

/-- The row scatter of updates that all carry the one row `e` (`upd (p, q, c) = e c`) into `x`: `e c` where the
    POINT scatter hits `(b, n)`, `x` elsewhere. -/
theorem row_scatter_row {α : Type} (x : (⟨3, ![N0, N1, C]⟩ : Shape).Idx → α) (e : Fin C → α)
    (upd : (⟨3, ![B, M, C]⟩ : Shape).Idx → α) (hupd : ∀ j, upd j = e (j 2))
    (idx : IVec ⟨3, ![B, M, 2]⟩ w) (b : Fin N0) (n : Fin N1) (c : Fin C) :
    Host.scatter (rowDims wfR) (fun _ v => v) x idx upd (ix3 b n c)
      = (open Classical in if ∃ j, (pointDims wfP).resultIdx? j idx = some (ix2 b n) then e c else x (ix3 b n c)) := by
  classical
  by_cases h : ∃ j, (pointDims wfP).resultIdx? j idx = some (ix2 b n)
  · rw [if_pos h]
    have hR := (row_hit_iff_point_hit wfP wfR idx b n c).2 h
    refine ScatterSet.scatter_set_of_hit_at _ x idx upd _ (e c) (fun j hj => ?_) hR
    rw [hupd j]
    exact congrArg e (Fin.ext ((row_lands_iff wfR j idx b n c).1 hj).2.2)
  · rw [if_neg h]
    exact ScatterSet.scatter_set_of_not_hit _ _ idx _ _
      (fun j hj => h ((row_hit_iff_point_hit wfP wfR idx b n c).1 ⟨j, hj⟩))

end Idealize.ShloMosaic.ScatterRows
-- ==== Proof.MaskConsts.lean ====
/-
  The three float patterns the mask test meets, as extended reals: the pattern of 1.0 is 1, that of 0.5 is 1/2,
  the zero pattern is 0.  So a mask entry 1 passes the test "greater than 0.5" and a mask entry 0 fails it.
-/
import Idealize.ShloMosaic.PureOps.Ideal
import Idealize.ShloMosaic.PureOps.Ideal.Laws

namespace Cert.MaskConsts

open Idealize.ShloMosaic

theorem one_f32 : Ideal.ofBits .f32 0x3F800000#32 = 1 := by
  simp [Ideal.ofBits, Ideal.ieee, -EReal.coe_mul]; norm_num

theorem half_f32 : Ideal.ofBits .f32 0x3F000000#32 = (((1 : ℝ) / 2 : ℝ) : EReal) := by
  simp [Ideal.ofBits, Ideal.ieee, -EReal.coe_mul]; norm_num

/-- 1 > 1/2. -/
theorem one_gt_half : Ideal.cmp .ogt (Ideal.ofBits .f32 0x3F800000#32) (Ideal.ofBits .f32 0x3F000000#32) = 1#1 := by
  rw [one_f32, half_f32]
  have h : (((1 : ℝ) / 2 : ℝ) : EReal) < 1 := by exact_mod_cast (by norm_num : ((1 : ℝ) / 2) < 1)
  show BitVec.ofBool (decide ((((1 : ℝ) / 2 : ℝ) : EReal) < 1)) = 1#1
  rw [decide_eq_true h]; rfl

/-- 0 > 1/2 fails. -/
theorem zero_not_gt_half : Ideal.cmp .ogt (Ideal.ofBits .f32 0x00000000#32) (Ideal.ofBits .f32 0x3F000000#32) = 0#1 := by
  rw [Ideal.ofBits_zero_f32, half_f32]
  have h : ¬ ((((1 : ℝ) / 2 : ℝ) : EReal) < 0) := by
    have : ((0 : ℝ) : EReal) ≤ (((1 : ℝ) / 2 : ℝ) : EReal) := by exact_mod_cast (by norm_num : (0 : ℝ) ≤ 1 / 2)
    exact not_lt.mpr (by simpa using this)
  show BitVec.ofBool (decide ((((1 : ℝ) / 2 : ℝ) : EReal) < 0)) = 0#1
  rw [decide_eq_false h]; rfl

end Cert.MaskConsts
-- ==== Proof.Bridge.lean ====
/-
  The reference's result is the kernel's function of the arguments.

  Reference: `x.at[batch, idx, :].set(emb[0])` — an overwriting ROW scatter of the one row `emb[0]` into `x` at the
  table of index pairs.  Kernel: the same table POINT-scatters 1.0 into a zero mask `[32, 8192]`, and the result is
  `emb[0, d]` where `mask[b, n] > 1/2` and `x[b, n, d]` elsewhere.  Both scatters drop the pairs outside
  `[0, 32) × [0, 8192)`, and an index `(b, n, d)` is hit by the row scatter exactly when `(b, n)` is hit by the point
  scatter (every update that hits it writing `emb[0, d]`); on the hit set the mask is 1 > 1/2, off it 0 ≤ 1/2.  So
  the two results agree at every index, for every index table: repeated pairs and out-of-range pairs included, and no
  finiteness of `x` or `emb` is used.
-/
import proofs.«109381_j59176059404649_1_alg».proof.Proof.KernelValue
import proofs.«109381_j59176059404649_1_alg».proof.Proof.Gen.ReferenceIdeal.Read
import proofs.«109381_j59176059404649_1_alg».proof.Proof.LibScatterRows
import proofs.«109381_j59176059404649_1_alg».proof.Proof.MaskConsts
import Idealize.ShloMosaic.Lib.Pipeline.Value

noncomputable section

namespace Cert.ScatterBridge

open Idealize.ShloMosaic Idealize.ShloMosaic.ValueIdx Idealize.ShloMosaic.ScatterRows
open Cert.KernelIdeal.MaskedRows

/-- The kernel's scatter record is the point scatter's dimension numbers. -/
theorem kernelDims_eq :
    Cert.KernelIdeal.scatter_S32x8192_S32x1228x2_S32x1228_n_01_01_2
      = pointDims (N0 := 32) (N1 := 8192) (B := 32) (M := 1228) Cert.KernelIdeal.Gen.scatter_S32x8192_S32x1228x2_S32x1228_n_01_01_2_wf := rfl

/-- The reference's scatter record is the row scatter's dimension numbers. -/
theorem referenceDims_eq :
    Cert.ReferenceIdeal.scatter_S32x8192x256_S32x1228x2_S32x1228x256_2_01_01_2
      = rowDims (N0 := 32) (N1 := 8192) (C := 256) (B := 32) (M := 1228)
          Cert.ReferenceIdeal.Gen.scatter_S32x8192x256_S32x1228x2_S32x1228x256_2_01_01_2_wf := rfl

/-- Both programs build ONE table of index pairs from the index input. -/
theorem pairs_eq (a1 : IVec ⟨2, ![32, 1228]⟩ 32) :
    Cert.ReferenceIdeal.Read.val_main_v16 (F := Ideal) a1 = indexPairs a1 := rfl

/-- Every update of the reference's scatter carries the row `emb[0]`: update `(p, q, c)` is `emb[0, c]`. -/
theorem update_row (e : Cert.ReferenceIdeal.S1x256.Idx → EReal) (j : Cert.ReferenceIdeal.S32x1228x256.Idx) :
    Cert.ReferenceIdeal.Read.val_main_v17 (F := Ideal) e j = e (ix2 (0 : Fin 1) (j 2)) := by
  rw [Cert.ReferenceIdeal.Read.val_main_v17_apply, Cert.ReferenceIdeal.Read.val_main_v2_apply]
  refine congrArg e (funext fun a => ?_)
  match a with
  | ⟨0, _⟩ => rfl
  | ⟨1, _⟩ => exact Fin.ext (Nat.mod_eq_of_lt (j 2).isLt)

/-- The mask entry of row `(b, n)`: the pattern of 1.0 when some index pair is `(b, n)`, the zero pattern otherwise. -/
theorem mask_apply (a1 : IVec ⟨2, ![32, 1228]⟩ 32) (b : Fin 32) (n : Fin 8192) :
    maskArr (F := Ideal) a1 (ix3 b n (0 : Fin 1))
      = (open Classical in
          if ∃ j, (pointDims (N0 := 32) (N1 := 8192) (B := 32) (M := 1228)
              Cert.KernelIdeal.Gen.scatter_S32x8192_S32x1228x2_S32x1228_n_01_01_2_wf).resultIdx? j (indexPairs a1) = some (ix2 b n)
          then Ideal.ofBits .f32 0x3F800000#32 else Ideal.ofBits .f32 0x00000000#32) := by
  unfold maskArr
  refine (broadcastInDim_apply _ _ _ (ix3 b n (0 : Fin 1)) (ix2 b n) (fun a => match a with
    | ⟨0, _⟩ => by show b.val = if (32 : Nat) = 1 then 0 else b.val; rw [if_neg (by decide)]
    | ⟨1, _⟩ => by show n.val = if (8192 : Nat) = 1 then 0 else n.val; rw [if_neg (by decide)])).trans ?_
  rw [kernelDims_eq]
  exact point_scatter_const _ (Ideal.ofBits .f32 0x00000000#32) (Ideal.ofBits .f32 0x3F800000#32) (indexPairs a1) b n

/-- THE TWO RESULTS ARE ONE FUNCTION of `x`, the index input and `emb`. -/
theorem result_eq (x : Cert.ReferenceIdeal.S32x8192x256.Idx → EReal) (a1 : IVec ⟨2, ![32, 1228]⟩ 32)
    (e : Cert.ReferenceIdeal.S1x256.Idx → EReal) :
    Cert.ReferenceIdeal.Read.val_main_v18 (F := Ideal) x a1 e
      = selectRows (F := Ideal) x (maskArr (F := Ideal) a1) e := by
  classical
  funext i
  obtain ⟨b, n, d, rfl⟩ : ∃ (b : Fin 32) (n : Fin 8192) (d : Fin 256), i = ix3 b n d := ⟨i 0, i 1, i 2, eq_ix3 i⟩
  have hR : Cert.ReferenceIdeal.Read.val_main_v18 (F := Ideal) x a1 e (ix3 b n d)
      = if ∃ j, (pointDims (N0 := 32) (N1 := 8192) (B := 32) (M := 1228)
              Cert.KernelIdeal.Gen.scatter_S32x8192_S32x1228x2_S32x1228_n_01_01_2_wf).resultIdx? j (indexPairs a1) = some (ix2 b n)
        then e (ix2 (0 : Fin 1) d) else x (ix3 b n d) := by
    unfold Cert.ReferenceIdeal.Read.val_main_v18
    rw [referenceDims_eq, pairs_eq]
    exact row_scatter_row _ _ x (fun c => e (ix2 (0 : Fin 1) c)) _ (update_row e) (indexPairs a1) b n d
  rw [hR]
  show _ = Scalar.select (Ideal.cmp .ogt (maskArr (F := Ideal) a1 (ix3 b n (0 : Fin 1))) (Ideal.ofBits .f32 0x3F000000#32))
      (e (ix2 (0 : Fin 1) d)) (x (ix3 b n d))
  rw [mask_apply]
  split
  · rw [Cert.MaskConsts.one_gt_half, select_one]
  · rw [Cert.MaskConsts.zero_not_gt_half, select_zero]

end Cert.ScatterBridge

end
-- ==== Proof.lean ====
/-
  The certificate of the masked row replacement.

  Kernel: the host turns the index input `mask_indices : [32, 1228]` into a 0/1 mask `[32, 8192, 1]` (ones scattered
  into zeros at the pairs (batch, index)), and the pallas_call, over a 32 × 4 grid of row blocks, writes
  `out[b, n, :] = emb[0, :]` where `mask[b, n] > 1/2` and `x[b, n, :]` elsewhere.  Reference:
  `x.at[batch, mask_indices, :].set(emb[0])`, one overwriting row scatter.  Both return the index input unchanged
  as their second result.

  * The three frames: the two kernels' are the generated frame theorems; the reference's is its generated run with the
    result dropped.
  * `preserves`: the ideal pass rewrote nothing, the conjunct is `True`.
  * `algebraic`: the kernel's result array is `selectRows x (maskArr idx) emb` (KernelValue.lean, over the generated
    blockwise value leg), the reference's is the row scatter (the generated run), and the two are one function of the
    arguments (Bridge.lean, over the two scatter lemmas of LibScatterSet.lean and LibScatterRows.lean): an index is hit
    by the row scatter exactly when its row is hit by the point scatter that builds the mask.  The precondition (finite
    inputs) is not used: the equality holds for all extended-real `x` and `emb` and every index table.
-/
import proofs.«109381_j59176059404649_1_alg».proof.Defs
import proofs.«109381_j59176059404649_1_alg».proof.Proof.Gen.Kernel
import proofs.«109381_j59176059404649_1_alg».proof.Proof.Gen.Kernel.Skeleton
import proofs.«109381_j59176059404649_1_alg».proof.Proof.Gen.Kernel.Launch
import proofs.«109381_j59176059404649_1_alg».proof.Proof.Gen.Kernel.Points
import proofs.«109381_j59176059404649_1_alg».proof.Proof.Gen.Kernel.Frame
import proofs.«109381_j59176059404649_1_alg».proof.Proof.Gen.KernelIdeal
import proofs.«109381_j59176059404649_1_alg».proof.Proof.Gen.KernelIdeal.Skeleton
import proofs.«109381_j59176059404649_1_alg».proof.Proof.Gen.KernelIdeal.Launch
import proofs.«109381_j59176059404649_1_alg».proof.Proof.Gen.KernelIdeal.Points
import proofs.«109381_j59176059404649_1_alg».proof.Proof.Gen.KernelIdeal.Frame
import proofs.«109381_j59176059404649_1_alg».proof.Proof.Gen.ReferenceIdeal
import proofs.«109381_j59176059404649_1_alg».proof.Proof.Gen.KernelIdeal.Value
import proofs.«109381_j59176059404649_1_alg».proof.Proof.Gen.ReferenceIdeal.Run
import proofs.«109381_j59176059404649_1_alg».proof.Proof.Gen.ReferenceIdeal.Read
import proofs.«109381_j59176059404649_1_alg».proof.Proof.Gen.Pre_finite_inputs
import proofs.«109381_j59176059404649_1_alg».proof.Proof.KernelValue
import proofs.«109381_j59176059404649_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- From memories that agree on the arguments, both programs end with the result array
    `selectRows x (maskArr idx) emb` and with the index input as their second result. -/
theorem algebraic : Cert.algebraic_KernelIdeal_ReferenceIdeal := by
  intro m ρ m' ρ' _ hagree
  refine ⟨_, _, (θ_run Cert.KernelIdeal.defs _ _).mono
      (fun r h c => ⟨(h c).1, (h c).2.2.1, (h c).2.1, (h c).2.2.1, (h c).2.2.2⟩)
      (Cert.KernelIdeal.MaskedRows.run (F := Ideal) m ρ), ?_⟩
  refine (θ_run Cert.ReferenceIdeal.defs _ _).mono (fun r h c => ⟨?_, ?_, (h c).2.2⟩)
    (Cert.ReferenceIdeal.Value.run (F := Ideal) m' ρ')
  · refine (h c).1.trans ?_
    refine (Cert.ScatterBridge.result_eq _ _ _).trans ?_
    rw [(hagree c).1, (hagree c).2.1, (hagree c).2.2]
  · rw [(h c).2.1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
